-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x2048 : Shape := ⟨2, ![1024, 2048]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x2048 .f32) (main_arg5 : FVec F S1024 .f32) (main_arg6 : FVec F S1024x2048 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_v33

def fn {F : FTy → Type} [FloatOps F] (main_arg0 : FVec F S8x4096x1024 .f32) (main_arg1 : FVec F S8x4096x1024 .f32) (main_arg2 : FVec F S1024x2048 .f32) (main_arg3 : FVec F S1024 .f32) (main_arg4 : FVec F S1024x2048 .f32) (main_arg5 : FVec F S1024 .f32) (main_arg6 : FVec F S1024x2048 .f32) (main_arg7 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8x4096x1024 : Shape := ⟨3, ![8, 4096, 1024]⟩
abbrev S1024x2048 : Shape := ⟨2, ![1024, 2048]⟩
abbrev S1024 : Shape := ⟨1, ![1024]⟩
abbrev S32768x1024 : Shape := ⟨2, ![32768, 1024]⟩
abbrev S1024x1024 : Shape := ⟨2, ![1024, 1024]⟩
abbrev S1x1024 : Shape := ⟨2, ![1, 1024]⟩
abbrev S256x1024 : Shape := ⟨2, ![256, 1024]⟩

abbrev nBuf : Space → Nat
  | .hbm => 33
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S32768x1024, .f32⟩
  | .hbm, ⟨9, _⟩ => ⟨S32768x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S32768x1024, .f32⟩
  | .hbm, ⟨32, _⟩ => ⟨S8x4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8x4096x1024_S32768x1024 : S8x4096x1024.ShapeCasts S32768x1024
  slices_S1024x2048_S1024x1024_0_0 : S1024x2048.Slices ![0, 0] S1024x1024
  transposes_S1024x1024_S1024x1024_1_0 : S1024x1024.Transposes [1, 0] S1024x1024
  bitsLt_bf16_f32 : FTy.bits .bf16 < FTy.bits .f32
  slices_S1024x2048_S1024x1024_0_1024 : S1024x2048.Slices ![0, 1024] S1024x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S32768x1024_S8x4096x1024 : S32768x1024.ShapeCasts S8x4096x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S32768x1024.size a
  hwx0_11 : ∀ i : grid0.Coords, EltTy.bits .f32 = 32 ∨ (Rect.block (s := S32768x1024) S256x1024.size (cc0_transform_11 i) (hinb0_11 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x2048 : Shape := ⟨2, ![1024, 2048]⟩
abbrev S1024 : Shape := ⟨1, ![1024]⟩
abbrev S8x4096x2048 : Shape := ⟨3, ![8, 4096, 2048]⟩
abbrev S1x1x1024 : Shape := ⟨3, ![1, 1, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S8x4096x2048, .f32⟩
  | .hbm, ⟨9, _⟩ => ⟨S8x4096x1024, .f32⟩
  | .hbm, ⟨10, _⟩ => ⟨S1x1x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x2048, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  concatenates_S8x4096x1024_S8x4096x1024_S8x4096x2048_d2 : Shape.Concatenates [S8x4096x1024, S8x4096x1024] S8x4096x2048 2
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  dot_S8x4096x2048_S1024x2048_S8x4096x1024_2_1_01_0_n_n_wf : DotDims.WF S8x4096x2048 S1024x2048 S8x4096x1024 [2] [1] [0, 1] [0] [] []

variable [Facts₀]

def dot_S8x4096x2048_S1024x2048_S8x4096x1024_2_1_01_0_n_n : DotDims S8x4096x2048 S1024x2048 S8x4096x1024 where
  lhsContracting := [2]
  rhsContracting := [1]
  lhsNonContracting := [0, 1]
  rhsNonContracting := [0]
  lhsBatch := []
  rhsBatch := []
  wf := dot_S8x4096x2048_S1024x2048_S8x4096x1024_2_1_01_0_n_n_wf

class Facts : Prop extends Facts₀ where

variable [Facts]
-- ==== Proof.Spec.lean ====
/-
  One step of a gated recurrent cell, on activation rows of width 1024.

  A row of the input `u` and a row of the previous state `v` are laid side by side into one row of width 2048,
  and a weight matrix of shape [1024, 2048] with a bias of width 1024 maps that row to

      lin W b u v j  =  ∑ κ < 1024, u κ · W[j, κ]  +  ∑ κ < 1024, v κ · W[j, 1024 + κ]  +  b j ,

  the two sums being the left and the right half of the contraction over the 2048 columns. With three such
  layers (gate, update, candidate) the new state is

      z = logistic (lin Wg bg u v),   r = logistic (lin Wu bu u v),
      c = tanh (lin Wc bc u (r ⊙ v)),   out = (1 - z) ⊙ v + z ⊙ c ,

  everything on the extended reals. `G` is that function of the whole arrays: entry (b, s, j) is the cell on row
  (b, s) of the two activation arrays.
-/
import Idealize.ShloMosaic.Lib.ValueIdx
import Idealize.ShloMosaic.PureOps.Ideal

noncomputable section

namespace Cert.Gru

open Idealize.ShloMosaic Idealize.ShloMosaic.ValueIdx

/-- An activation array [8, 4096, 1024]. -/
abbrev Act : Type := (⟨3, ![8, 4096, 1024]⟩ : Shape).Idx → EReal
/-- A weight matrix [1024, 2048]: row `j` holds the coefficients of output feature `j`. -/
abbrev Wt : Type := (⟨2, ![1024, 2048]⟩ : Shape).Idx → EReal
/-- A bias [1024]. -/
abbrev Bias : Type := (⟨1, ![1024]⟩ : Shape).Idx → EReal
/-- One row of 1024 features. -/
abbrev Row : Type := Fin 1024 → EReal

/-- Column `κ` of the left half of a weight row (the input's coefficients). -/
def colL (κ : Fin 1024) : Fin 2048 := ⟨κ.val, by have := κ.isLt; omega⟩
/-- Column `1024 + κ` of a weight row (the previous state's coefficients). -/
def colR (κ : Fin 1024) : Fin 2048 := ⟨1024 + κ.val, by have := κ.isLt; omega⟩

/-- Output feature `j` of a linear layer on the row `[u, v]`. -/
def lin (W : Wt) (b : Bias) (u v : Row) (j : Fin 1024) : EReal :=
  (∑ κ : Fin 1024, u κ * W (ix2 j (colL κ))) + (∑ κ : Fin 1024, v κ * W (ix2 j (colR κ))) + b (ix1 j)

/-- Feature `j` of the new state from the rows `u` (input) and `v` (previous state). -/
def cell (Wg : Wt) (bg : Bias) (Wu : Wt) (bu : Bias) (Wc : Wt) (bc : Bias) (u v : Row) (j : Fin 1024) : EReal :=
  (1 - Ideal.logistic (lin Wg bg u v j)) * v j
    + Ideal.logistic (lin Wg bg u v j)
      * Ideal.tanh (lin Wc bc u (fun κ => Ideal.logistic (lin Wu bu u v κ) * v κ) j)

/-- The new state as one function of the eight argument arrays, entry by entry. -/
def G (x h : Act) (Wg : Wt) (bg : Bias) (Wu : Wt) (bu : Bias) (Wc : Wt) (bc : Bias) : Act := fun i =>
  cell Wg bg Wu bu Wc bc (fun κ => x (ix3 (i 0 : Fin 8) (i 1 : Fin 4096) κ)) (fun κ => h (ix3 (i 0 : Fin 8) (i 1 : Fin 4096) κ))
    (i 2 : Fin 1024)

end Cert.Gru

end
-- ==== Proof.RefValue.lean ====
/-
  The reference's result, entry by entry, is the gated cell `G`.

  The reference lays a row of the input and a row of the previous state side by side (a concatenation along the
  feature axis, width 2048) and contracts the joined row with a weight row. A sum over the 2048 joined positions is the
  sum over the first 1024 (where the joined row holds the input) plus the sum over the last 1024 (where it holds the
  previous state): addition on the extended reals is commutative and associative, so no finiteness is used. The
  logistic function is spelt 1 / (1 + exp (-y)), which is the ideal logistic function itself, the word 0x3F800000
  being the number one. The second concatenation joins the input with (reset gate ⊙ previous state).
-/
import proofs.«175971_j20023137534722_1_alg».proof.Proof.RefRead
import proofs.«175971_j20023137534722_1_alg».proof.Proof.Spec
import Idealize.ShloMosaic.Lib.IdealHost

noncomputable section

namespace Cert.ReferenceIdeal.RefValue

open Idealize.ShloMosaic Idealize.ShloMosaic.ValueIdx Cert.ReferenceIdeal Cert.ReferenceIdeal.Gen Cert.ReferenceIdeal.ReadP Cert.Gru

/-! ## A sum over the joined row -/

/-- A sum over 2048 positions is the sum over the first 1024 plus the sum over the last 1024. -/
theorem sum_halves (f : Fin 2048 → EReal) : ∑ k : Fin 2048, f k = (∑ κ : Fin 1024, f (colL κ)) + ∑ κ : Fin 1024, f (colR κ) := by
  have h := Fin.sum_univ_add (a := 1024) (b := 1024) (f : Fin (1024 + 1024) → EReal)
  rw [h]
  have eL : ∀ κ : Fin 1024, (Fin.castAdd 1024 κ : Fin (1024 + 1024)) = colL κ := fun κ => Fin.ext rfl
  have eR : ∀ κ : Fin 1024, (Fin.natAdd 1024 κ : Fin (1024 + 1024)) = colR κ := fun κ => Fin.ext rfl
  simp only [eL, eR]

/-- The joined row holds the first operand's row on its first 1024 positions. -/
theorem cat_left (a b : Act) (p : Fin 8) (s : Fin 4096) (κ : Fin 1024) :
    concatenate S8x4096x2048 2 [⟨S8x4096x1024, a⟩, ⟨S8x4096x1024, b⟩] concatenates_S8x4096x1024_S8x4096x1024_S8x4096x2048_d2
      (ix3 p s (colL κ)) = a (ix3 p s κ) :=
  concatenate_pair_apply_left (2 : Fin 3) a b concatenates_S8x4096x1024_S8x4096x1024_S8x4096x2048_d2 (ix3 p s (colL κ)) rfl (ix3 p s κ)
    (fun c => match c with | ⟨0, _⟩ => rfl | ⟨1, _⟩ => rfl | ⟨2, _⟩ => rfl)

/-- and the second operand's row on its last 1024. -/
theorem cat_right (a b : Act) (p : Fin 8) (s : Fin 4096) (κ : Fin 1024) :
    concatenate S8x4096x2048 2 [⟨S8x4096x1024, a⟩, ⟨S8x4096x1024, b⟩] concatenates_S8x4096x1024_S8x4096x1024_S8x4096x2048_d2
      (ix3 p s (colR κ)) = b (ix3 p s κ) :=
  concatenate_pair_apply_right (2 : Fin 3) a b concatenates_S8x4096x1024_S8x4096x1024_S8x4096x2048_d2 (ix3 p s (colR κ)) rfl rfl (ix3 p s κ)
    (fun c hc => match c, hc with | ⟨0, _⟩, _ => rfl | ⟨1, _⟩, _ => rfl | ⟨2, _⟩, hc => absurd rfl hc)
    (by show κ.val + 1024 = 1024 + κ.val; omega)

/-- The contraction of the joined row with a weight row: the input's half plus the previous state's half. -/
theorem dot_cat (a b : Act) (W : Wt) (p : Fin 8) (s : Fin 4096) (j : Fin 1024) :
    (∑ k : Fin 2048, concatenate S8x4096x2048 2 [⟨S8x4096x1024, a⟩, ⟨S8x4096x1024, b⟩]
        concatenates_S8x4096x1024_S8x4096x1024_S8x4096x2048_d2 (ix3 p s k) * W (ix2 j k))
      = (∑ κ : Fin 1024, a (ix3 p s κ) * W (ix2 j (colL κ))) + ∑ κ : Fin 1024, b (ix3 p s κ) * W (ix2 j (colR κ)) := by
  rw [sum_halves]
  simp only [cat_left, cat_right]

/-! ## The printed index functions, by coordinates -/

theorem lidx_eq (p : Fin 8) (s : Fin 4096) (j : Fin 1024) (k : Fin 2048) : lidx_main_v1 (ix3 p s j) k = ix3 p s k :=
  funext fun a => match a with | ⟨0, _⟩ => rfl | ⟨1, _⟩ => rfl | ⟨2, _⟩ => rfl
theorem ridx_eq (p : Fin 8) (s : Fin 4096) (j : Fin 1024) (k : Fin 2048) : ridx_main_v1 (ix3 p s j) k = ix2 j k :=
  funext fun a => match a with | ⟨0, _⟩ => rfl | ⟨1, _⟩ => rfl
theorem bidx_eq (p : Fin 8) (s : Fin 4096) (j : Fin 1024) : idx_main_v2 (idx_main_v3 (ix3 p s j)) = ix1 j :=
  funext fun a => match a with | ⟨0, _⟩ => rfl

theorem lidx11_eq (p : Fin 8) (s : Fin 4096) (j : Fin 1024) (k : Fin 2048) : lidx_main_v11 (ix3 p s j) k = ix3 p s k :=
  funext fun a => match a with | ⟨0, _⟩ => rfl | ⟨1, _⟩ => rfl | ⟨2, _⟩ => rfl
theorem ridx11_eq (p : Fin 8) (s : Fin 4096) (j : Fin 1024) (k : Fin 2048) : ridx_main_v11 (ix3 p s j) k = ix2 j k :=
  funext fun a => match a with | ⟨0, _⟩ => rfl | ⟨1, _⟩ => rfl
theorem bidx12_eq (p : Fin 8) (s : Fin 4096) (j : Fin 1024) : idx_main_v12 (idx_main_v13 (ix3 p s j)) = ix1 j :=
  funext fun a => match a with | ⟨0, _⟩ => rfl
theorem lidx23_eq (p : Fin 8) (s : Fin 4096) (j : Fin 1024) (k : Fin 2048) : lidx_main_v23 (ix3 p s j) k = ix3 p s k :=
  funext fun a => match a with | ⟨0, _⟩ => rfl | ⟨1, _⟩ => rfl | ⟨2, _⟩ => rfl
theorem ridx23_eq (p : Fin 8) (s : Fin 4096) (j : Fin 1024) (k : Fin 2048) : ridx_main_v23 (ix3 p s j) k = ix2 j k :=
  funext fun a => match a with | ⟨0, _⟩ => rfl | ⟨1, _⟩ => rfl
theorem bidx24_eq (p : Fin 8) (s : Fin 4096) (j : Fin 1024) : idx_main_v24 (idx_main_v25 (ix3 p s j)) = ix1 j :=
  funext fun a => match a with | ⟨0, _⟩ => rfl

/-! ## The three layers -/

/-- The spelt-out logistic function is the ideal one. -/
theorem sigmoid_eq (y : EReal) :
    FloatOps.hostDivf (F := Ideal) (φ := .f32) (FloatOps.ofBits .f32 0x3F800000#32)
        (FloatOps.addf (FloatOps.ofBits .f32 0x3F800000#32) (FloatOps.hostUnary .exp (FloatOps.hostNegf y)))
      = Ideal.logistic y := by
  simp only [Ideal.hostDivf_def, Ideal.addf_def, Ideal.hostUnary_exp_def, Ideal.hostNegf_def, Ideal.negf_def, Ideal.ofBits_def,
    Ideal.ofBits_one_f32]
  rfl

/-- The gate layer's pre-activation. -/
theorem pre_g (x0 x1 : Act) (x2 : Wt) (x3 : Bias) (p : Fin 8) (s : Fin 4096) (j : Fin 1024) :
    val_main_v4 (F := Ideal) x0 x1 x2 x3 (ix3 p s j) = lin x2 x3 (fun κ => x0 (ix3 p s κ)) (fun κ => x1 (ix3 p s κ)) j := by
  rw [val_main_v4_apply, val_main_v1_apply, val_main_v3_apply, val_main_v2_apply]
  unfold val_main_v0
  simp only [lidx_eq, ridx_eq, bidx_eq]
  rw [dot_cat]
  rfl

/-- The gate. -/
theorem gate_z (x0 x1 : Act) (x2 : Wt) (x3 : Bias) (p : Fin 8) (s : Fin 4096) (j : Fin 1024) :
    val_main_v10 (F := Ideal) x0 x1 x2 x3 (ix3 p s j)
      = Ideal.logistic (lin x2 x3 (fun κ => x0 (ix3 p s κ)) (fun κ => x1 (ix3 p s κ)) j) := by
  rw [val_main_v10_apply, val_main_v9_apply, val_main_cst_0_apply, val_main_v8_apply, val_main_v7_apply, val_main_cst_apply,
    val_main_v6_apply, val_main_v5_apply, pre_g]
  exact sigmoid_eq _

/-- The update layer's pre-activation. -/
theorem pre_u (x0 x1 : Act) (x4 : Wt) (x5 : Bias) (p : Fin 8) (s : Fin 4096) (j : Fin 1024) :
    val_main_v14 (F := Ideal) x0 x1 x4 x5 (ix3 p s j) = lin x4 x5 (fun κ => x0 (ix3 p s κ)) (fun κ => x1 (ix3 p s κ)) j := by
  rw [val_main_v14_apply, val_main_v11_apply, val_main_v13_apply, val_main_v12_apply]
  unfold val_main_v0
  simp only [lidx11_eq, ridx11_eq, bidx12_eq]
  rw [dot_cat]
  rfl

/-- The reset gate. -/
theorem gate_r (x0 x1 : Act) (x4 : Wt) (x5 : Bias) (p : Fin 8) (s : Fin 4096) (j : Fin 1024) :
    val_main_v20 (F := Ideal) x0 x1 x4 x5 (ix3 p s j)
      = Ideal.logistic (lin x4 x5 (fun κ => x0 (ix3 p s κ)) (fun κ => x1 (ix3 p s κ)) j) := by
  rw [val_main_v20_apply, val_main_v19_apply, val_main_cst_2_apply, val_main_v18_apply, val_main_v17_apply, val_main_cst_1_apply,
    val_main_v16_apply, val_main_v15_apply, pre_u]
  exact sigmoid_eq _

/-- The candidate layer's pre-activation: the joined row is the input beside (reset gate ⊙ previous state). -/
theorem pre_c (x0 x1 : Act) (x4 : Wt) (x5 : Bias) (x6 : Wt) (x7 : Bias) (p : Fin 8) (s : Fin 4096) (j : Fin 1024) :
    val_main_v26 (F := Ideal) x0 x1 x4 x5 x6 x7 (ix3 p s j)
      = lin x6 x7 (fun κ => x0 (ix3 p s κ))
          (fun κ => Ideal.logistic (lin x4 x5 (fun κ' => x0 (ix3 p s κ')) (fun κ' => x1 (ix3 p s κ')) κ) * x1 (ix3 p s κ)) j := by
  rw [val_main_v26_apply, val_main_v23_apply, val_main_v25_apply, val_main_v24_apply]
  unfold val_main_v22
  simp only [lidx23_eq, ridx23_eq, bidx24_eq]
  rw [dot_cat]
  simp only [val_main_v21_apply, gate_r]
  rfl

/-! ## The result -/

/-- The reference's result is the gated cell of the argument arrays. -/
theorem ref_eq (x0 x1 : Act) (x2 : Wt) (x3 : Bias) (x4 : Wt) (x5 : Bias) (x6 : Wt) (x7 : Bias) :
    val_main_v32 (F := Ideal) x0 x1 x2 x3 x4 x5 x6 x7 = G x0 x1 x2 x3 x4 x5 x6 x7 := by
  funext i
  obtain ⟨p, s, j, rfl⟩ : ∃ (p : Fin 8) (s : Fin 4096) (j : Fin 1024), i = ix3 p s j := ⟨i 0, i 1, i 2, eq_ix3 i⟩
  rw [val_main_v32_apply, val_main_v30_apply, val_main_v31_apply, val_main_v29_apply, val_main_v28_apply, val_main_cst_3_apply,
    val_main_v27_apply, gate_z, pre_c]
  simp only [Ideal.addf_def, Ideal.mulf_def, Ideal.subf_def, Ideal.hostUnary_tanh_def, Ideal.ofBits_def, Ideal.ofBits_one_f32]
  rfl

end Cert.ReferenceIdeal.RefValue

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelCell.lean ====
/-
  What the kernel body computes, at one entry of its output block.

  The body reads a block of 256 rows of the input (`x0`) and of the previous state (`x1`), the six halves of the three
  weight matrices, each transposed to [contraction index, feature] (`x2 … x7`), and the three biases as rows
  (`x8, x9, x10`), and stores ONE block. Every product is a plain matrix product into a zero accumulator, so at the
  ideal values entry (p, q) of a product is the sum over κ < 1024 of (row p of the left operand at κ) times
  (the right operand at (κ, q)); the changes of float format are the identity; the logistic function and tanh act
  entry by entry; the bias row is broadcast down the 256 rows. Hence entry (p, q) of the stored block is the gated
  cell of rows p of the two activation blocks, written over the transposed halves: `cellT`.
-/
import proofs.«175971_j20023137534722_1_alg».proof.Proof.Gen.KernelIdeal.Frame
import proofs.«175971_j20023137534722_1_alg».proof.Proof.LibPlainDot
import proofs.«175971_j20023137534722_1_alg».proof.Proof.Spec
import Idealize.ShloMosaic.Lib.Pipeline.Value
import Idealize.ShloMosaic.Lib.ValueIdx
import Idealize.ShloMosaic.Lib.IdealHost

noncomputable section

namespace Cert.KernelIdeal.Cell

open Idealize.ShloMosaic Idealize.ShloMosaic.ValueIdx Cert.KernelIdeal Cert.KernelIdeal.Gen Cert.Gru

/-- A half of a weight matrix, transposed: entry (κ, q) is the coefficient of input feature κ for output feature q. -/
abbrev Half : Type := (⟨2, ![1024, 1024]⟩ : Shape).Idx → EReal
/-- A bias as one row. -/
abbrev BRow : Type := (⟨2, ![1, 1024]⟩ : Shape).Idx → EReal

/-- Output feature `q` of a linear layer on the row `[u, v]`, over the two transposed halves and the bias row. -/
def linT (A B : Half) (b : BRow) (u v : Row) (q : Fin 1024) : EReal :=
  (∑ κ : Fin 1024, u κ * A (ix2 κ q)) + (∑ κ : Fin 1024, v κ * B (ix2 κ q)) + b (ix2 (0 : Fin 1) q)

/-- Feature `q` of the new state, over the transposed halves. -/
def cellT (Agx Agh Aux Auh Acx Ach : Half) (bg bu bc : BRow) (u v : Row) (q : Fin 1024) : EReal :=
  (1 - Ideal.logistic (linT Agx Agh bg u v q)) * v q
    + Ideal.logistic (linT Agx Agh bg u v q)
      * Ideal.tanh (linT Acx Ach bc u (fun κ => Ideal.logistic (linT Aux Auh bu u v κ) * v κ) q)

/-! ## The operations of the body at an entry -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The body's products are plain matrix products [256, 1024] · [1024, 1024]. -/
theorem plain : Cert.PlainDot.Plain dot_S256x1024_S1024x1024_S256x1024_1_0_0_1_n_n := ⟨rfl, rfl, rfl, rfl, rfl, rfl⟩

/-- A product of the body into its zero accumulator, at entry (p, q). -/
theorem mm_apply (l : FVec Ideal S256x1024 .bf16) (r : FVec Ideal S1024x1024 .bf16) (p : Fin 256) (q : Fin 1024) :
    matmul dot_S256x1024_S1024x1024_S256x1024_1_0_0_1_n_n none l r (constant S256x1024 .f32 0x00000000#32) (ix2 p q)
      = ∑ κ : Fin 1024, l (ix2 p κ) * r (ix2 κ q) :=
  Cert.PlainDot.matmul_zero_apply plain rfl rfl none l r p q

/-- A bias row broadcast down the rows of the block, at entry (p, q). -/
theorem bias_apply (b : FVec Ideal S1x1024 .f32) (p : Fin 256) (q : Fin 1024) :
    broadcastTo S256x1024 b broadcasts_S1x1024_S256x1024 (ix2 p q) = b (ix2 (0 : Fin 1) q) :=
  broadcastTo_apply b broadcasts_S1x1024_S256x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-! ## The payloads at an entry -/

/-- The previous state's block passes through its shape cast unchanged. -/
theorem pay2_eq (v2 : Vec Ideal S256x1024 .f32) : k0_pay2 (F := Ideal) v2 = v2 := by
  unfold k0_pay2; exact shapeCast_self _ _

/-- A gate: the logistic function of the layer on rows p of the two blocks. -/
theorem pay5_apply (v0 v2 : Vec Ideal S256x1024 .f32) (A B : Vec Ideal S1024x1024 .bf16) (b : Vec Ideal S1x1024 .f32)
    (p : Fin 256) (q : Fin 1024) :
    k0_pay5 (F := Ideal) v0 v2 A B b (ix2 p q)
      = Ideal.logistic (linT A B b (fun κ => v0 (ix2 p κ)) (fun κ => v2 (ix2 p κ)) q) := by
  unfold k0_pay5 k0_pay3 k0_pay4 k0_pay2
  simp only [shapeCast_self]
  rw [logistic_apply, addf_apply, addf_apply, mm_apply, mm_apply, bias_apply]
  rfl

/-- The reset gate times the previous state, at an entry. -/
theorem pay6_apply (v0 v2 : Vec Ideal S256x1024 .f32) (A B : Vec Ideal S1024x1024 .bf16) (b : Vec Ideal S1x1024 .f32)
    (p : Fin 256) (q : Fin 1024) :
    k0_pay6 (F := Ideal) v0 v2 A B b (ix2 p q)
      = Ideal.logistic (linT A B b (fun κ => v0 (ix2 p κ)) (fun κ => v2 (ix2 p κ)) q) * v2 (ix2 p q) := by
  unfold k0_pay6 k0_pay3 k0_pay4 k0_pay2
  simp only [shapeCast_self]
  rw [truncf_apply, mulf_apply, logistic_apply, addf_apply, addf_apply, mm_apply, mm_apply, bias_apply]
  rfl

/-- The input's part of the candidate layer, at an entry. -/
theorem pay7_apply (v0 : Vec Ideal S256x1024 .f32) (A : Vec Ideal S1024x1024 .bf16) (p : Fin 256) (q : Fin 1024) :
    k0_pay7 (F := Ideal) v0 A (ix2 p q) = ∑ κ : Fin 1024, v0 (ix2 p κ) * A (ix2 κ q) := by
  unfold k0_pay7 k0_pay3
  simp only [shapeCast_self]
  rw [mm_apply]
  rfl

/-- The blend, at an entry, from the values the earlier part of the body hands on. -/
theorem pay1_apply (v3 v17 : FVec Ideal S256x1024 .f32) (v31 : FVec Ideal S256x1024 .bf16) (v34 : FVec Ideal S256x1024 .f32)
    (v35 : Vec Ideal S1024x1024 .bf16) (v39 : Vec Ideal S1x1024 .f32) (p : Fin 256) (q : Fin 1024) :
    k0_pay1 (F := Ideal) v3 v17 v31 v34 v35 v39 (ix2 p q)
      = (1 - v17 (ix2 p q)) * v3 (ix2 p q)
        + v17 (ix2 p q) * Ideal.tanh (v34 (ix2 p q) + (∑ κ : Fin 1024, v31 (ix2 p κ) * v35 (ix2 κ q)) + v39 (ix2 (0 : Fin 1) q)) := by
  unfold k0_pay1
  simp only [shapeCast_self]
  rw [addf_apply, mulf_apply, mulf_apply, subf_apply, tanh_apply, addf_apply, addf_apply, mm_apply, bias_apply, broadcast_apply]
  show (Ideal.ofBits .f32 0x3F800000#32 - _) * _ + _ = _
  rw [Ideal.ofBits_one_f32]

/-! ## The stored block at an entry -/

theorem hz : (![0, 0] : Fin 2 → Nat) = fun _ => 0 := funext fun a => by fin_cases a <;> rfl

/-- The one store covers the block, and every load is of a whole buffer: the stored block is the blend's payload of the
    loaded blocks. -/
theorem out_eq (x0 x1 : Vec Ideal S256x1024 .f32) (x2 x3 x4 x5 x6 x7 : Vec Ideal S1024x1024 .bf16) (x8 x9 x10 : Vec Ideal S1x1024 .f32) :
    out0_11 (F := Ideal) x0 x1 x2 x3 x4 x5 x6 x7 x8 x9 x10
      = k0_pay1 (k0_pay2 x1) (k0_pay5 x0 x1 x2 x3 x8) (k0_pay6 x0 x1 x4 x5 x9) (k0_pay7 x0 x6) x7 x10 := by
  unfold out0_11
  rw [View.canon_unit_zero hz]
  simp only [View.ld_unit_zero (S := S256x1024) hz, View.ld_unit_zero (S := S1024x1024) hz, View.ld_unit_zero (S := S1x1024) hz]

/-- Entry (p, q) of the stored block is the gated cell of rows p of the two activation blocks. -/
theorem out_apply (x0 x1 : Vec Ideal S256x1024 .f32) (x2 x3 x4 x5 x6 x7 : Vec Ideal S1024x1024 .bf16) (x8 x9 x10 : Vec Ideal S1x1024 .f32)
    (p : Fin 256) (q : Fin 1024) :
    out0_11 (F := Ideal) x0 x1 x2 x3 x4 x5 x6 x7 x8 x9 x10 (ix2 p q)
      = cellT x2 x3 x4 x5 x6 x7 x8 x9 x10 (fun κ => x0 (ix2 p κ)) (fun κ => x1 (ix2 p κ)) q := by
  rw [out_eq, pay1_apply, pay2_eq, pay5_apply, pay7_apply]
  unfold cellT
  have hr : (∑ κ : Fin 1024, k0_pay6 (F := Ideal) x0 x1 x4 x5 x9 (ix2 p κ) * x7 (ix2 κ q))
      = ∑ κ : Fin 1024, (Ideal.logistic (linT x4 x5 x9 (fun κ => x0 (ix2 p κ)) (fun κ => x1 (ix2 p κ)) κ) * x1 (ix2 p κ)) * x7 (ix2 κ q) :=
    Finset.sum_congr rfl fun κ _ => by rw [pay6_apply]
  rw [hr]
  rfl

end Cert.KernelIdeal.Cell

end
-- ==== Proof.KernelArgs.lean ====
/-
  What the kernel region finds in the arrays its windows read.

  Before the region the host flattens the two activation arrays [8, 4096, 1024] to [32768, 1024] (row 4096·b + s is
  row (b, s)), cuts each weight matrix [1024, 2048] into its left and right halves, transposes each half to
  [contraction index, feature] and changes its float format (the identity on the ideal values), and turns each bias
  into a single row. So entry (κ, q) of a transposed half is the weight matrix at row q and column κ (left half) or
  1024 + κ (right half), entry (0, q) of a bias row is the bias at q, and the layer over the transposed halves
  (`linT`) is the layer over the weight matrix (`lin`).
-/
import proofs.«175971_j20023137534722_1_alg».proof.Proof.Gen.KernelIdeal.Frame
import proofs.«175971_j20023137534722_1_alg».proof.Proof.KernelCell
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Args

open Idealize.ShloMosaic Idealize.ShloMosaic.TcCoe Idealize.ShloMosaic.ValueIdx Idealize.ShloMosaic.StableHlo Idealize.SL.Sem
open Cert.KernelIdeal Cert.KernelIdeal.Gen Cert.KernelIdeal.Cell Cert.Gru

variable (m : (ℓ : Loc nD τ sig) → Buf (Elt Ideal) ℓ)

/-! ## The layout operations at an index -/

/-- Row 4096·b + s of a flattened activation array is row (b, s) of the array. -/
theorem flat_apply (x : Act) (b : Fin 8) (s : Fin 4096) (κ : Fin 1024) (r : Fin 32768) (hr : r.val = b.val * 4096 + s.val) :
    shapeCast S32768x1024 x shapeCasts_S8x4096x1024_S32768x1024 (ix2 r κ) = x (ix3 b s κ) :=
  shapeCast_apply x shapeCasts_S8x4096x1024_S32768x1024 (ix2 r κ) (ix3 b s κ) (by
    rw [Shape.rowMajor_val_three, Shape.rowMajor_val_two]
    show (b.val * 4096 + s.val) * 1024 + κ.val = r.val * 1024 + κ.val
    rw [hr])

/-- The left half of a weight matrix, transposed: entry (κ, q) is the matrix at (q, κ). -/
theorem halfL_apply (W : Wt) (κ q : Fin 1024) :
    truncf (F := Ideal) .bf16 (transpose S1024x1024 [1, 0] (extractStridedSlice S1024x1024 ![0, 0] W slices_S1024x2048_S1024x1024_0_0)
      transposes_S1024x1024_S1024x1024_1_0) bitsLt_bf16_f32 (ix2 κ q) = W (ix2 q (colL κ)) := by
  rw [truncf_apply, transpose_ix2_apply]
  exact extractStridedSlice_apply _ W _ (ix2 q κ) (ix2 q (colL κ)) (fun a => match a with
    | ⟨0, _⟩ => by show q.val = 0 + q.val; omega
    | ⟨1, _⟩ => by show κ.val = 0 + κ.val; omega)

/-- The right half, transposed: entry (κ, q) is the matrix at (q, 1024 + κ). -/
theorem halfR_apply (W : Wt) (κ q : Fin 1024) :
    truncf (F := Ideal) .bf16 (transpose S1024x1024 [1, 0] (extractStridedSlice S1024x1024 ![0, 1024] W slices_S1024x2048_S1024x1024_0_1024)
      transposes_S1024x1024_S1024x1024_1_0) bitsLt_bf16_f32 (ix2 κ q) = W (ix2 q (colR κ)) := by
  rw [truncf_apply, transpose_ix2_apply]
  exact extractStridedSlice_apply _ W _ (ix2 q κ) (ix2 q (colR κ)) (fun a => match a with
    | ⟨0, _⟩ => by show q.val = 0 + q.val; omega
    | ⟨1, _⟩ => by show 1024 + κ.val = 1024 + κ.val; rfl)

/-- A bias as one row: entry (0, q) is the bias at q. -/
theorem biasRow_apply (b : Bias) (q : Fin 1024) :
    shapeCast S1x1024 b shapeCasts_S1024_S1x1024 (ix2 (0 : Fin 1) q) = b (ix1 q) :=
  shapeCast_apply b shapeCasts_S1024_S1x1024 (ix2 (0 : Fin 1) q) (ix1 q) (by
    rw [Shape.rowMajor_val_one, Shape.rowMajor_val_two]
    show q.val = 0 * 1024 + q.val
    omega)

/-- A layer over transposed halves and a bias row that hold a weight matrix's entries is the layer over the matrix. -/
theorem linT_eq_lin (A B : Half) (b : BRow) (W : Wt) (bias : Bias) (hA : ∀ κ q, A (ix2 κ q) = W (ix2 q (colL κ)))
    (hB : ∀ κ q, B (ix2 κ q) = W (ix2 q (colR κ))) (hb : ∀ q, b (ix2 (0 : Fin 1) q) = bias (ix1 q)) (u v : Row) (q : Fin 1024) :
    linT A B b u v q = lin W bias u v q := by
  unfold linT lin
  simp only [hA, hB, hb]

/-! ## The arrays as the region finds them -/

/-- The input, flattened. -/
theorem v0_eq (c : Dev nD) : (V m c main_v0 : S32768x1024.Idx → EReal)
    = shapeCast S32768x1024 (m ((c : Thread nD τ).loc main_arg0)) shapeCasts_S8x4096x1024_S32768x1024 := by
  show StableHlo.after hostOps0 (fun b => m (c, b)) (Proc.devRef .tc main_v0) = _
  after_results
  rfl

/-- The previous state, flattened. -/
theorem v1_eq (c : Dev nD) : (V m c main_v1 : S32768x1024.Idx → EReal)
    = shapeCast S32768x1024 (m ((c : Thread nD τ).loc main_arg1)) shapeCasts_S8x4096x1024_S32768x1024 := by
  show StableHlo.after hostOps0 (fun b => m (c, b)) (Proc.devRef .tc main_v1) = _
  after_results
  rfl

/-- The left half of the weight matrix `main_arg2`, transposed, at an entry. -/
theorem wgx_apply (c : Dev nD) (κ q : Fin 1024) :
    (V m c main_v4 : S1024x1024.Idx → EReal) (ix2 κ q) = m ((c : Thread nD τ).loc main_arg2) (ix2 q (colL κ)) := by
  have e : (V m c main_v4 : S1024x1024.Idx → EReal)
      = truncf (F := Ideal) .bf16 (transpose S1024x1024 [1, 0] (extractStridedSlice S1024x1024 ![0, 0] (m ((c : Thread nD τ).loc main_arg2))
          slices_S1024x2048_S1024x1024_0_0) transposes_S1024x1024_S1024x1024_1_0) bitsLt_bf16_f32 := by
    show StableHlo.after hostOps0 (fun b => m (c, b)) (Proc.devRef .tc main_v4) = _
    after_results
  rw [e]
  exact halfL_apply _ κ q

/-- The right half of the weight matrix `main_arg2`, transposed, at an entry. -/
theorem wgh_apply (c : Dev nD) (κ q : Fin 1024) :
    (V m c main_v7 : S1024x1024.Idx → EReal) (ix2 κ q) = m ((c : Thread nD τ).loc main_arg2) (ix2 q (colR κ)) := by
  have e : (V m c main_v7 : S1024x1024.Idx → EReal)
      = truncf (F := Ideal) .bf16 (transpose S1024x1024 [1, 0] (extractStridedSlice S1024x1024 ![0, 1024] (m ((c : Thread nD τ).loc main_arg2))
          slices_S1024x2048_S1024x1024_0_1024) transposes_S1024x1024_S1024x1024_1_0) bitsLt_bf16_f32 := by
    show StableHlo.after hostOps0 (fun b => m (c, b)) (Proc.devRef .tc main_v7) = _
    after_results
  rw [e]
  exact halfR_apply _ κ q

/-- The left half of the weight matrix `main_arg4`, transposed, at an entry. -/
theorem wux_apply (c : Dev nD) (κ q : Fin 1024) :
    (V m c main_v10 : S1024x1024.Idx → EReal) (ix2 κ q) = m ((c : Thread nD τ).loc main_arg4) (ix2 q (colL κ)) := by
  have e : (V m c main_v10 : S1024x1024.Idx → EReal)
      = truncf (F := Ideal) .bf16 (transpose S1024x1024 [1, 0] (extractStridedSlice S1024x1024 ![0, 0] (m ((c : Thread nD τ).loc main_arg4))
          slices_S1024x2048_S1024x1024_0_0) transposes_S1024x1024_S1024x1024_1_0) bitsLt_bf16_f32 := by
    show StableHlo.after hostOps0 (fun b => m (c, b)) (Proc.devRef .tc main_v10) = _
    after_results
  rw [e]
  exact halfL_apply _ κ q

/-- The right half of the weight matrix `main_arg4`, transposed, at an entry. -/
theorem wuh_apply (c : Dev nD) (κ q : Fin 1024) :
    (V m c main_v13 : S1024x1024.Idx → EReal) (ix2 κ q) = m ((c : Thread nD τ).loc main_arg4) (ix2 q (colR κ)) := by
  have e : (V m c main_v13 : S1024x1024.Idx → EReal)
      = truncf (F := Ideal) .bf16 (transpose S1024x1024 [1, 0] (extractStridedSlice S1024x1024 ![0, 1024] (m ((c : Thread nD τ).loc main_arg4))
          slices_S1024x2048_S1024x1024_0_1024) transposes_S1024x1024_S1024x1024_1_0) bitsLt_bf16_f32 := by
    show StableHlo.after hostOps0 (fun b => m (c, b)) (Proc.devRef .tc main_v13) = _
    after_results
  rw [e]
  exact halfR_apply _ κ q

/-- The left half of the weight matrix `main_arg6`, transposed, at an entry. -/
theorem wcx_apply (c : Dev nD) (κ q : Fin 1024) :
    (V m c main_v16 : S1024x1024.Idx → EReal) (ix2 κ q) = m ((c : Thread nD τ).loc main_arg6) (ix2 q (colL κ)) := by
  have e : (V m c main_v16 : S1024x1024.Idx → EReal)
      = truncf (F := Ideal) .bf16 (transpose S1024x1024 [1, 0] (extractStridedSlice S1024x1024 ![0, 0] (m ((c : Thread nD τ).loc main_arg6))
          slices_S1024x2048_S1024x1024_0_0) transposes_S1024x1024_S1024x1024_1_0) bitsLt_bf16_f32 := by
    show StableHlo.after hostOps0 (fun b => m (c, b)) (Proc.devRef .tc main_v16) = _
    after_results
  rw [e]
  exact halfL_apply _ κ q

/-- The right half of the weight matrix `main_arg6`, transposed, at an entry. -/
theorem wch_apply (c : Dev nD) (κ q : Fin 1024) :
    (V m c main_v19 : S1024x1024.Idx → EReal) (ix2 κ q) = m ((c : Thread nD τ).loc main_arg6) (ix2 q (colR κ)) := by
  have e : (V m c main_v19 : S1024x1024.Idx → EReal)
      = truncf (F := Ideal) .bf16 (transpose S1024x1024 [1, 0] (extractStridedSlice S1024x1024 ![0, 1024] (m ((c : Thread nD τ).loc main_arg6))
          slices_S1024x2048_S1024x1024_0_1024) transposes_S1024x1024_S1024x1024_1_0) bitsLt_bf16_f32 := by
    show StableHlo.after hostOps0 (fun b => m (c, b)) (Proc.devRef .tc main_v19) = _
    after_results
  rw [e]
  exact halfR_apply _ κ q

/-- The bias `main_arg3` as a row, at an entry. -/
theorem bg_apply (c : Dev nD) (q : Fin 1024) :
    (V m c main_v20 : S1x1024.Idx → EReal) (ix2 (0 : Fin 1) q) = m ((c : Thread nD τ).loc main_arg3) (ix1 q) := by
  have e : (V m c main_v20 : S1x1024.Idx → EReal) = shapeCast S1x1024 (m ((c : Thread nD τ).loc main_arg3)) shapeCasts_S1024_S1x1024 := by
    show StableHlo.after hostOps0 (fun b => m (c, b)) (Proc.devRef .tc main_v20) = _
    after_results
    rfl
  rw [e]
  exact biasRow_apply _ q

/-- The bias `main_arg5` as a row, at an entry. -/
theorem bu_apply (c : Dev nD) (q : Fin 1024) :
    (V m c main_v21 : S1x1024.Idx → EReal) (ix2 (0 : Fin 1) q) = m ((c : Thread nD τ).loc main_arg5) (ix1 q) := by
  have e : (V m c main_v21 : S1x1024.Idx → EReal) = shapeCast S1x1024 (m ((c : Thread nD τ).loc main_arg5)) shapeCasts_S1024_S1x1024 := by
    show StableHlo.after hostOps0 (fun b => m (c, b)) (Proc.devRef .tc main_v21) = _
    after_results
    rfl
  rw [e]
  exact biasRow_apply _ q

/-- The bias `main_arg7` as a row, at an entry. -/
theorem bc_apply (c : Dev nD) (q : Fin 1024) :
    (V m c main_v22 : S1x1024.Idx → EReal) (ix2 (0 : Fin 1) q) = m ((c : Thread nD τ).loc main_arg7) (ix1 q) := by
  have e : (V m c main_v22 : S1x1024.Idx → EReal) = shapeCast S1x1024 (m ((c : Thread nD τ).loc main_arg7)) shapeCasts_S1024_S1x1024 := by
    show StableHlo.after hostOps0 (fun b => m (c, b)) (Proc.devRef .tc main_v22) = _
    after_results
    rfl
  rw [e]
  exact biasRow_apply _ q

/-! ## The cell over the region's arrays is the cell over the arguments -/

/-- The gated cell over the transposed halves the region finds is the gated cell over the three weight matrices and
    biases as launched. -/
theorem cellT_eq_cell (c : Dev nD) (u v : Row) (q : Fin 1024) :
    cellT (V m c main_v4) (V m c main_v7) (V m c main_v10) (V m c main_v13) (V m c main_v16) (V m c main_v19)
        (V m c main_v20) (V m c main_v21) (V m c main_v22) u v q
      = cell (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) u v q := by
  unfold cellT cell
  have hg := linT_eq_lin (V m c main_v4) (V m c main_v7) (V m c main_v20) _ _ (wgx_apply m c) (wgh_apply m c) (bg_apply m c)
  have hu := linT_eq_lin (V m c main_v10) (V m c main_v13) (V m c main_v21) _ _ (wux_apply m c) (wuh_apply m c) (bu_apply m c)
  have hc := linT_eq_lin (V m c main_v16) (V m c main_v19) (V m c main_v22) _ _ (wcx_apply m c) (wch_apply m c) (bc_apply m c)
  simp only [hg, hu, hc]

end Cert.KernelIdeal.Args

end
-- ==== Proof.KernelArray.lean ====
/-
  From the blocks to the whole result.

  The grid has 128 points; point t reads rows 256·t … 256·t + 255 of the two flattened activation arrays, reads the
  six transposed weight halves and the three bias rows whole (their block index never moves), and writes back rows
  256·t … 256·t + 255 of the flat result [32768, 1024]. What it writes back is, entry by entry, the gated cell of the
  corresponding rows, so it is block t of ONE function of the arrays (`Gflat`). Row r of the result lies in the block
  of point r / 256, so the 128 blocks cover the result, which therefore ends holding `Gflat`. After the region the
  host reshapes the flat result to [8, 4096, 1024]: entry (b, s, j) is flat entry (4096·b + s, j), and flat row
  4096·b + s of an activation array is its row (b, s): the program's result is the gated cell `G` of its arguments.
-/
import proofs.«175971_j20023137534722_1_alg».proof.Proof.Gen.KernelIdeal.Frame
import proofs.«175971_j20023137534722_1_alg».proof.Proof.KernelCell
import proofs.«175971_j20023137534722_1_alg».proof.Proof.KernelArgs
import proofs.«175971_j20023137534722_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Arr

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.Cell Cert.KernelIdeal.Args Cert.Gru

variable (m : (ℓ : Loc nD τ sig) → Buf (Elt Ideal) ℓ) (ρ : Dev nD → PrngReg)

/-! ## The windows' block indices over the grid -/

/-- The two activation windows and the result window move one block of rows per point; every other window stays on
    its only block. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

theorem point_lt (t : Fin cfg0.N) : t.val < 128 := by
  have h : t.val < grid0.N := t.isLt
  rwa [N_0] at h

/-! ## The blocks a point reads -/

/-- Row p of the input's block at point t is row 256·t + p of the flattened input. -/
theorem xblk_row (c : Dev nD) (t : Fin cfg0.N) (p : Fin 256) (κ : Fin 1024) (r : Fin 32768) (hr : r.val = 256 * t.val + p.val) :
    (iblk m c 0 t : S256x1024.Idx → EReal) (ix2 p κ) = (V m c main_v0 : S32768x1024.Idx → EReal) (ix2 r κ) := by
  show V m c main_v0 (((cfg0.win 0).blk t).view.emb (ix2 p κ)) = _
  refine congrArg (V m c main_v0) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_0.index t (0 : Fin 2) * 256 + 1 * p.val = r.val; omega
  | ⟨1, _⟩ => show win0_0.index t (1 : Fin 2) * 1024 + 1 * κ.val = κ.val; omega

/-- Row p of the previous state's block at point t is row 256·t + p of the flattened previous state. -/
theorem hblk_row (c : Dev nD) (t : Fin cfg0.N) (p : Fin 256) (κ : Fin 1024) (r : Fin 32768) (hr : r.val = 256 * t.val + p.val) :
    (iblk m c 1 t : S256x1024.Idx → EReal) (ix2 p κ) = (V m c main_v1 : S32768x1024.Idx → EReal) (ix2 r κ) := by
  show V m c main_v1 (((cfg0.win 1).blk t).view.emb (ix2 p κ)) = _
  refine congrArg (V m c main_v1) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_1.index t (0 : Fin 2) * 256 + 1 * p.val = r.val; omega
  | ⟨1, _⟩ => show win0_1.index t (1 : Fin 2) * 1024 + 1 * κ.val = κ.val; omega

/-- Window 2's block is its whole array at every point. -/
theorem blk2_eq (c : Dev nD) (t : Fin cfg0.N) : (iblk m c 2 t : S1024x1024.Idx → EReal) = V m c main_v4 := by
  funext y
  show V m c main_v4 (((cfg0.win 2).blk t).view.emb y) = V m c main_v4 y
  refine congrArg (V m c main_v4) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- Window 3's block is its whole array at every point. -/
theorem blk3_eq (c : Dev nD) (t : Fin cfg0.N) : (iblk m c 3 t : S1024x1024.Idx → EReal) = V m c main_v7 := by
  funext y
  show V m c main_v7 (((cfg0.win 3).blk t).view.emb y) = V m c main_v7 y
  refine congrArg (V m c main_v7) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- Window 4's block is its whole array at every point. -/
theorem blk4_eq (c : Dev nD) (t : Fin cfg0.N) : (iblk m c 4 t : S1024x1024.Idx → EReal) = V m c main_v10 := by
  funext y
  show V m c main_v10 (((cfg0.win 4).blk t).view.emb y) = V m c main_v10 y
  refine congrArg (V m c main_v10) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_4.index t (0 : Fin 2) * 1024 + 1 * (y 0).val = (y 0).val; omega
  | ⟨1, _⟩ => show win0_4.index t (1 : Fin 2) * 1024 + 1 * (y 1).val = (y 1).val; omega

/-- Window 5's block is its whole array at every point. -/
theorem blk5_eq (c : Dev nD) (t : Fin cfg0.N) : (iblk m c 5 t : S1024x1024.Idx → EReal) = V m c main_v13 := by
  funext y
  show V m c main_v13 (((cfg0.win 5).blk t).view.emb y) = V m c main_v13 y
  refine congrArg (V m c main_v13) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- Window 6's block is its whole array at every point. -/
theorem blk6_eq (c : Dev nD) (t : Fin cfg0.N) : (iblk m c 6 t : S1024x1024.Idx → EReal) = V m c main_v16 := by
  funext y
  show V m c main_v16 (((cfg0.win 6).blk t).view.emb y) = V m c main_v16 y
  refine congrArg (V m c main_v16) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_6.index t (0 : Fin 2) * 1024 + 1 * (y 0).val = (y 0).val; omega
  | ⟨1, _⟩ => show win0_6.index t (1 : Fin 2) * 1024 + 1 * (y 1).val = (y 1).val; omega

/-- Window 7's block is its whole array at every point. -/
theorem blk7_eq (c : Dev nD) (t : Fin cfg0.N) : (iblk m c 7 t : S1024x1024.Idx → EReal) = V m c main_v19 := by
  funext y
  show V m c main_v19 (((cfg0.win 7).blk t).view.emb y) = V m c main_v19 y
  refine congrArg (V m c main_v19) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_7.index t (0 : Fin 2) * 1024 + 1 * (y 0).val = (y 0).val; omega
  | ⟨1, _⟩ => show win0_7.index t (1 : Fin 2) * 1024 + 1 * (y 1).val = (y 1).val; omega

/-- Window 8's block is its whole array at every point. -/
theorem blk8_eq (c : Dev nD) (t : Fin cfg0.N) : (iblk m c 8 t : S1x1024.Idx → EReal) = V m c main_v20 := by
  funext y
  show V m c main_v20 (((cfg0.win 8).blk t).view.emb y) = V m c main_v20 y
  refine congrArg (V m c main_v20) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_8.index t (0 : Fin 2) * 1 + 1 * (y 0).val = (y 0).val; omega
  | ⟨1, _⟩ => show win0_8.index t (1 : Fin 2) * 1024 + 1 * (y 1).val = (y 1).val; omega

/-- Window 9's block is its whole array at every point. -/
theorem blk9_eq (c : Dev nD) (t : Fin cfg0.N) : (iblk m c 9 t : S1x1024.Idx → EReal) = V m c main_v21 := by
  funext y
  show V m c main_v21 (((cfg0.win 9).blk t).view.emb y) = V m c main_v21 y
  refine congrArg (V m c main_v21) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_9.index t (0 : Fin 2) * 1 + 1 * (y 0).val = (y 0).val; omega
  | ⟨1, _⟩ => show win0_9.index t (1 : Fin 2) * 1024 + 1 * (y 1).val = (y 1).val; omega

/-- Window 10's block is its whole array at every point. -/
theorem blk10_eq (c : Dev nD) (t : Fin cfg0.N) : (iblk m c 10 t : S1x1024.Idx → EReal) = V m c main_v22 := by
  funext y
  show V m c main_v22 (((cfg0.win 10).blk t).view.emb y) = V m c main_v22 y
  refine congrArg (V m c main_v22) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_10.index t (0 : Fin 2) * 1 + 1 * (y 0).val = (y 0).val; omega
  | ⟨1, _⟩ => show win0_10.index t (1 : Fin 2) * 1024 + 1 * (y 1).val = (y 1).val; omega

/-! ## What a point writes back -/

/-- The flat result [32768, 1024] as one function of the arrays: entry (r, q) is the gated cell of rows r of the
    flattened activations. -/
def Gflat (c : Dev nD) : S32768x1024.Idx → EReal := fun i =>
  cell (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (fun κ => (V m c main_v0 : S32768x1024.Idx → EReal) (ix2 (i 0 : Fin 32768) κ))
    (fun κ => (V m c main_v1 : S32768x1024.Idx → EReal) (ix2 (i 0 : Fin 32768) κ)) (i 1 : Fin 1024)

/-- Point t writes back block t of `Gflat`. -/
theorem flushed_eq (c : Dev nD) (t : Fin cfg0.N) :
    (dats m 0 c).flushed 11 t = ((cfg0.win 11).blk t).view.read (Elt Ideal) (Gflat m c) := by
  show (cfg0.win 11).cut (grid0.coords t) ((dats m 0 c).after 11 t) = _
  rw [after0_11]
  funext y
  obtain ⟨p, q, rfl⟩ : ∃ (p : Fin 256) (q : Fin 1024), y = ix2 p q := ⟨y 0, y 1, eq_ix2 y⟩
  have ht := point_lt t
  have hp : p.val < 256 := p.isLt
  obtain ⟨r, hr⟩ : ∃ r : Fin 32768, r.val = 256 * t.val + p.val := ⟨⟨256 * t.val + p.val, by omega⟩, rfl⟩
  have hemb : ((cfg0.win 11).blk t).view.emb (ix2 p q) = ix2 r q := funext fun a => Fin.ext (by
    obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
    match a with
    | ⟨0, _⟩ => show win0_11.index t (0 : Fin 2) * 256 + 1 * p.val = r.val; omega
    | ⟨1, _⟩ => show win0_11.index t (1 : Fin 2) * 1024 + 1 * q.val = q.val; omega)
  show out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 p q) = Gflat m c (((cfg0.win 11).blk t).view.emb (ix2 p q))
  rw [hemb]
  refine (out_apply (iblk m c 0 t) (iblk m c 1 t) (iblk m c 2 t) (iblk m c 3 t) (iblk m c 4 t) (iblk m c 5 t) (iblk m c 6 t) (iblk m c 7 t)
    (iblk m c 8 t) (iblk m c 9 t) (iblk m c 10 t) p q).trans ?_
  have hx : (fun κ : Fin 1024 => (iblk m c 0 t : S256x1024.Idx → EReal) (ix2 p κ))
      = fun κ => (V m c main_v0 : S32768x1024.Idx → EReal) (ix2 r κ) := funext fun κ => xblk_row m c t p κ r hr
  have hh : (fun κ : Fin 1024 => (iblk m c 1 t : S256x1024.Idx → EReal) (ix2 p κ))
      = fun κ => (V m c main_v1 : S32768x1024.Idx → EReal) (ix2 r κ) := funext fun κ => hblk_row m c t p κ r hr
  rw [hx, hh, blk2_eq m c t, blk3_eq m c t, blk4_eq m c t, blk5_eq m c t, blk6_eq m c t, blk7_eq m c t, blk8_eq m c t, blk9_eq m c t,
    blk10_eq m c t]
  exact cellT_eq_cell m c _ _ q

/-! ## The blocks cover the result -/

/-- An index of the flat result is in point t's block iff each coordinate is in the block's range on its axis. -/
theorem mem_blk (t : Fin cfg0.N) (i : S32768x1024.Idx) :
    i ∈ ((cfg0.win 11).blk t).view.set ↔ ∀ a : Fin 2, win0_11.index t a * S256x1024.size a ≤ (i a).val
      ∧ (i a).val < win0_11.index t a * S256x1024.size a + S256x1024.size a := by
  show i ∈ ((View.whole main_v23).slice (win0_11.rect t)).set ↔ _
  rw [View.set_slice_whole, Rect.mem_set_unit]
  exact Iff.rfl

/-- Row r of the flat result is in the block of point r / 256. -/
theorem cover (i : S32768x1024.Idx) : ∃ t : Fin cfg0.N, (cfg0.win 11).flush t = true ∧ i ∈ ((cfg0.win 11).blk t).view.set := by
  have hi0 : (i 0).val < 32768 := (i 0).isLt
  have hi1 : (i 1).val < 1024 := (i 1).isLt
  obtain ⟨t, ht⟩ : ∃ t : Fin cfg0.N, t.val = (i 0).val / 256 :=
    ⟨⟨(i 0).val / 256, by show (i 0).val / 256 < grid0.N; rw [N_0]; omega⟩, rfl⟩
  refine ⟨t, flush0_11 t, ?_⟩
  rw [mem_blk]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 1024 ≤ (i 1).val ∧ (i 1).val < win0_11.index t (1 : Fin 2) * 1024 + 1024; omega

/-- The flat result after the region. -/
theorem final (c : Dev nD) : (dats m 0 c).arrAt 11 cfg0.N = Gflat m c :=
  (dats m 0 c).arrAt_eq_of_cover 11 (Gflat m c) (fun t _ => flushed_eq m c t) cover

/-! ## The reshape after the region, and the run -/

/-- The flat result reshaped to [8, 4096, 1024] is the gated cell of the argument arrays. -/
theorem reshape_Gflat (c : Dev nD) :
    shapeCast S8x4096x1024 (Gflat m c) shapeCasts_S32768x1024_S8x4096x1024
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨b, s, j, rfl⟩ : ∃ (b : Fin 8) (s : Fin 4096) (j : Fin 1024), i = ix3 b s j := ⟨i 0, i 1, i 2, eq_ix3 i⟩
  have hb : b.val < 8 := b.isLt
  have hs : s.val < 4096 := s.isLt
  obtain ⟨r, hr⟩ : ∃ r : Fin 32768, r.val = b.val * 4096 + s.val := ⟨⟨b.val * 4096 + s.val, by omega⟩, rfl⟩
  have e : shapeCast S8x4096x1024 (Gflat m c) shapeCasts_S32768x1024_S8x4096x1024 (ix3 b s j) = Gflat m c (ix2 r j) :=
    shapeCast_apply (Gflat m c) shapeCasts_S32768x1024_S8x4096x1024 (ix3 b s j) (ix2 r j) (by
      rw [Shape.rowMajor_val_two, Shape.rowMajor_val_three]
      show r.val * 1024 + j.val = (b.val * 4096 + s.val) * 1024 + j.val
      rw [hr])
  rw [e]
  show cell _ _ _ _ _ _ (fun κ => (V m c main_v0 : S32768x1024.Idx → EReal) (ix2 r κ))
      (fun κ => (V m c main_v1 : S32768x1024.Idx → EReal) (ix2 r κ)) j
    = cell _ _ _ _ _ _ (fun κ => (m ((c : Thread nD τ).loc main_arg0)) (ix3 b s κ)) (fun κ => (m ((c : Thread nD τ).loc main_arg1)) (ix3 b s κ)) j
  have hx : (fun κ : Fin 1024 => (V m c main_v0 : S32768x1024.Idx → EReal) (ix2 r κ)) = fun κ => (m ((c : Thread nD τ).loc main_arg0)) (ix3 b s κ) :=
    funext fun κ => by rw [v0_eq]; exact flat_apply _ b s κ r hr
  have hh : (fun κ : Fin 1024 => (V m c main_v1 : S32768x1024.Idx → EReal) (ix2 r κ)) = fun κ => (m ((c : Thread nD τ).loc main_arg1)) (ix3 b s κ) :=
    funext fun κ => by rw [v1_eq]; exact flat_apply _ b s κ r hr
  rw [hx, hh]

/-- What the host operation after the region leaves in the program's result buffer. -/
theorem tail_eq (c : Dev nD) :
    Pipeline.afterTail₀ cfgs (dats m) 0 (V0 m) [hostOps1] c main_v24
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v24) = _
  after_results
  rw [show Pipeline.withArrays spec0 c (V0 m c) (fun w => (dats m 0 c).arrAt w cfg0.N) (Proc.devRef .tc main_v23) = Gflat m c from
    (Pipeline.withArrays_arr spec0 launch0.win.arr_inj c _ _ 11).trans (final m c)]
  exact reshape_Gflat m c

/-- The kernel program's run with its result named: every weakly fair execution terminates with the result buffer at
    the gated cell of the argument arrays, and the arguments unchanged. -/
theorem run : θ_run defs (onTc (τ := τ) (main (F := Ideal))) ⟨m, fun _ => 0, ρ⟩ (fun r => ∀ c : Dev nD,
      r.2.mem ((c.tc : Thread nD τ).loc main_v24)
        = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_v24 (Pipeline.mem_restRefs_of main_v24 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Arr

end
-- ==== Proof.lean ====
/-
  One step of a gated recurrent cell: the tiled kernel against the plain reference, on the extended reals.

  Both programs take an input x and a previous state h of shape [8, 4096, 1024], three weight matrices [1024, 2048] and
  three biases [1024]. With [u, v] a row of x beside the same row of h,

      z = logistic ([u, v] · Wgᵀ + bg),   r = logistic ([u, v] · Wuᵀ + bu),
      c = tanh ([u, r ⊙ v] · Wcᵀ + bc),   out = (1 - z) ⊙ v + z ⊙ c.

  The reference joins the two rows and contracts over the 2048 joined columns. The kernel flattens the activations to
  32768 rows, splits every weight matrix into its left and right half, transposes the halves, and on each block of 256
  rows adds the two half-contractions instead; its reduced-precision products are exact products at the ideal
  values, and its logistic function is the reference's 1 / (1 + exp (-y)). A sum over 2048 positions is the sum over
  the first 1024 plus the sum over the last 1024 (addition is commutative and associative on the extended reals), so
  both programs compute the same function `Cert.Gru.G` of the arguments, entry by entry, and no finiteness of the
  inputs is used.

  The kernel's result array is read off its frame run block by block (Proof/KernelCell.lean, Proof/KernelArgs.lean,
  Proof/KernelArray.lean); the reference's off its run, one operation at a time (Proof/RefValue.lean). The idealization
  rewrote nothing, so the kernel's idealized program is its own text read at the ideal values.
-/
import proofs.«175971_j20023137534722_1_alg».proof.Defs
import proofs.«175971_j20023137534722_1_alg».proof.Proof.Gen.Kernel
import proofs.«175971_j20023137534722_1_alg».proof.Proof.Gen.Kernel.Skeleton
import proofs.«175971_j20023137534722_1_alg».proof.Proof.Gen.Kernel.Launch
import proofs.«175971_j20023137534722_1_alg».proof.Proof.Gen.Kernel.Points
import proofs.«175971_j20023137534722_1_alg».proof.Proof.Gen.Kernel.Frame
import proofs.«175971_j20023137534722_1_alg».proof.Proof.Gen.KernelIdeal
import proofs.«175971_j20023137534722_1_alg».proof.Proof.Gen.KernelIdeal.Skeleton
import proofs.«175971_j20023137534722_1_alg».proof.Proof.Gen.KernelIdeal.Launch
import proofs.«175971_j20023137534722_1_alg».proof.Proof.Gen.KernelIdeal.Points
import proofs.«175971_j20023137534722_1_alg».proof.Proof.Gen.KernelIdeal.Frame
import proofs.«175971_j20023137534722_1_alg».proof.Proof.Gen.ReferenceIdeal
import proofs.«175971_j20023137534722_1_alg».proof.Proof.Gen.Pre_finite_inputs
import proofs.«175971_j20023137534722_1_alg».proof.Proof.RefRun
import proofs.«175971_j20023137534722_1_alg».proof.Proof.RefRead
import proofs.«175971_j20023137534722_1_alg».proof.Proof.RefValue
import proofs.«175971_j20023137534722_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the gated cell `G` of the arguments in their
    result buffers: the kernel by its blocks, the reference by its operations. -/
theorem algebraic : Cert.algebraic_KernelIdeal_ReferenceIdeal := by
  intro m ρ m' ρ' _ hagree
  refine ⟨fun c => Cert.Gru.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Arr.run m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7⟩ := hagree c
  rw [h0, h1, h2, h3, h4, h5, h6, h7]
  exact (Cert.ReferenceIdeal.ReadP.val_main_v32_eq _ _ _ _ _ _ _ _).trans (Cert.ReferenceIdeal.RefValue.ref_eq _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
